-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x4096 : Shape := ⟨3, ![8, 1024, 4096]⟩
abbrev S4096x4096 : Shape := ⟨2, ![4096, 4096]⟩
abbrev S4096 : Shape := ⟨1, ![4096]⟩
abbrev S_ : Shape := ⟨0, ![]⟩

class Facts : Prop where
  bcast_S_S8x1024x4096 : S_.BroadcastsInDim S8x1024x4096 (![] : Fin 0 → Fin S8x1024x4096.rank)
  reducesTo_S8x1024x4096_S_d0_1_2 : S8x1024x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x1024x4096 .f32) (main_arg1 : FVec F S4096x4096 .f32) (main_arg2 : FVec F S4096 .f32) (main_arg3 : IVec S4096x4096 32) : IVec S_ 1 :=
  let main_v0 : FVec F S8x1024x4096 .f32 := Host.absf main_arg0
  let main_cst : FVec F S_ .f32 := constant S_ .f32 0x7F800000#32
  let main_v1 : FVec F S8x1024x4096 .f32 := broadcastInDim S8x1024x4096 ![] bcast_S_S8x1024x4096 main_cst
  let main_v2 : IVec S8x1024x4096 1 := cmpf .olt main_v0 main_v1
  let main_c : IVec S_ 1 := constantI S_ 1 1#1
  let main_v3 : IVec S_ 1 := (fun x v => Host.reduce IntOp.andi x v reducesTo_S8x1024x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x1024x4096 : Shape := ⟨3, ![8, 1024, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x512 : Shape := ⟨2, ![1024, 512]⟩
abbrev S512x2048 : Shape := ⟨2, ![512, 2048]⟩
abbrev S1x2048 : Shape := ⟨2, ![1, 2048]⟩
abbrev S1024x2048 : Shape := ⟨2, ![1024, 2048]⟩

abbrev nBuf : Space → Nat
  | .hbm => 11
  | .vmem => 9
  | .smem => 0
  | _ => 0

abbrev bufTy : (tb : Table) → Fin (tcTables nBuf tb) → BufTy
  | .hbm, ⟨0, _⟩ => ⟨S8x1024x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8x1024x4096, .f32⟩
  | .local _ .vmem, ⟨0, _⟩ => ⟨S1024x512, .f32⟩
  | .local _ .vmem, ⟨1, _⟩ => ⟨S1024x512, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S8x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S8x1024x4096_S8192x4096 : S8x1024x4096.ShapeCasts S8192x4096
  shapeCasts_S4096_S1x4096 : S4096.ShapeCasts S1x4096
  shapeCasts_S8192x4096_S8x1024x4096 : S8192x4096.ShapeCasts S8x1024x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .bf16 = 32 ∨ (Rect.block (s := S4096x4096) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_call0_v3) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x1024x4096 : Shape := ⟨3, ![8, 1024, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8x1024x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .f32⟩
  | .hbm, ⟨5, _⟩ => ⟨S4096x4096, .f32⟩
  | .hbm, ⟨6, _⟩ => ⟨S8x1024x4096, .f32⟩
  | .hbm, ⟨7, _⟩ => ⟨S1x1x4096, .f32⟩
  | .hbm, ⟨8, _⟩ => ⟨S8x1024x4096, .f32⟩
  | .hbm, ⟨9, _⟩ => ⟨S8x1024x4096, .f32⟩
  | _, _ => ⟨S8x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x1024x4096_0_1_2 : S1x1x4096.BroadcastsInDim S8x1024x4096 (![0, 1, 2] : Fin 3 → Fin S8x1024x4096.rank)
  dot_S8x1024x4096_S4096x4096_S8x1024x4096_2_0_01_1_n_n_wf : DotDims.WF S8x1024x4096 S4096x4096 S8x1024x4096 [2] [0] [0, 1] [1] [] []

variable [Facts₀]

def dot_S8x1024x4096_S4096x4096_S8x1024x4096_2_0_01_1_n_n : DotDims S8x1024x4096 S4096x4096 S8x1024x4096 where
  lhsContracting := [2]
  rhsContracting := [0]
  lhsNonContracting := [0, 1]
  rhsNonContracting := [1]
  lhsBatch := []
  rhsBatch := []
  wf := dot_S8x1024x4096_S4096x4096_S8x1024x4096_2_0_01_1_n_n_wf

class Facts : Prop extends Facts₀ where

variable [Facts]
-- ==== Proof.Steps.lean ====
/-
  What one grid step leaves behind, case by case.

  The body keeps a running [1024, 2048] block in a buffer of its own. At a step whose contraction block is the first
  it stores the zero block there; at every step it reads the running block back, adds the product of the step's
  [1024, 512] activation block with its [512, 2048] weight block, and stores the sum; at a step whose contraction
  block is the last it reads the new running block once more, adds the step's [1, 2048] bias block along the rows, and
  stores that into the output block. So, writing `P acc` for "`acc` plus the step's block product" (the second
  store's value) and `Z` for the zero block (the first store's value):
    * first contraction block:  the running block ends at `P Z`;
    * a middle one:             it ends at `P prev`, `prev` what the step before left;
    * the last one:             it ends at `P prev`, and the output block at `P prev` plus the bias row.
  Each statement below reads the stores a case makes back as one whole-block value; a load that follows a store of the
  same buffer reads what was stored.
-/
import proofs.«410328_j31645319036952_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Steps

open Cert.KernelIdeal Cert.KernelIdeal.Gen

variable {F : FTy → Type} [FloatOps F]

/-- Every load and store of the body starts at the origin of its buffer. -/
theorem origin : (![0, 0] : Fin 2 → Nat) = fun _ => 0 := funext fun a => by fin_cases a <;> rfl

/-- First contraction block: the running block ends at the zero block plus the step's product. -/
theorem running_first (c : Dev nD) (i : grid0.Coords) (a3 : Memref sig .tc .vmem S1024x512 .f32) (h3 : a3.IsWhole)
    (a4 : Memref sig .tc .vmem S512x2048 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : cond0_0 i) (hc1 : ¬cond0_1 i) (x0 : Vec F S1024x512 .f32) (x1 : Vec F S512x2048 .bf16) (x2 : Vec F S1x2048 .f32) :
    sout0_A_0 c i a3 h3 a4 h4 a5 h5 a6 h6 a7 h7 hc0 hc1 x0 x1 x2 = k0_pay2 x0 (k0_pay1 (F := F)) x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x2048) origin, View.readCov_unit_zero (S := S1024x2048) _ origin]
  simp only [View.readAt_eq_ld, h3.read_unread, h4.read_unread, View.ld_unit_zero (S := S1024x512) origin,
    View.ld_unit_zero (S := S512x2048) origin]

/-- A middle contraction block: the running block ends at what the step before left plus the step's product. -/
theorem running_middle (c : Dev nD) (i : grid0.Coords) (a3 : Memref sig .tc .vmem S1024x512 .f32) (h3 : a3.IsWhole)
    (a4 : Memref sig .tc .vmem S512x2048 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : ¬cond0_0 i) (hc1 : ¬cond0_1 i) (x0 : Vec F S1024x512 .f32) (x1 : Vec F S512x2048 .bf16) (x2 : Vec F S1x2048 .f32) (prev : Vec F S1024x2048 .f32) :
    sout0_B_0 c i a3 h3 a4 h4 a5 h5 a6 h6 a7 h7 hc0 hc1 x0 x1 x2 prev = k0_pay2 x0 prev x1 := by
  unfold sout0_B_0
  rw [View.read_writes_eq_canon _ _ _ (scover0_B_0 c i a3 h3 a4 h4 a5 h5 a6 h6 a7 h7 hc0 hc1 x0 x1 x2 prev)]
  unfold kernelRun0_B
  dsimp only
  sl_unfold_words
  rw [View.canon_unit_zero origin]
  simp only [View.readAt_eq_ld, h3.read_unread, h4.read_unread, h7.read_unread, View.ld_unit_zero (S := S1024x512) origin,
    View.ld_unit_zero (S := S512x2048) origin, View.ld_unit_zero (S := S1024x2048) origin]

/-- The last contraction block: the running block, as at a middle one. -/
theorem running_last (c : Dev nD) (i : grid0.Coords) (a3 : Memref sig .tc .vmem S1024x512 .f32) (h3 : a3.IsWhole)
    (a4 : Memref sig .tc .vmem S512x2048 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : ¬cond0_0 i) (hc1 : cond0_1 i) (x0 : Vec F S1024x512 .f32) (x1 : Vec F S512x2048 .bf16) (x2 : Vec F S1x2048 .f32) (prev : Vec F S1024x2048 .f32) :
    sout0_C_0 c i a3 h3 a4 h4 a5 h5 a6 h6 a7 h7 hc0 hc1 x0 x1 x2 prev = k0_pay2 x0 prev x1 := by
  unfold sout0_C_0
  rw [View.read_writes_eq_canon _ _ _ (scover0_C_0 c i a3 h3 a4 h4 a5 h5 a6 h6 a7 h7 hc0 hc1 x0 x1 x2 prev)]
  unfold kernelRun0_C
  dsimp only
  sl_unfold_words
  rw [View.canon_unit_zero origin]
  simp only [View.readAt_eq_ld, h3.read_unread, h4.read_unread, h7.read_unread, View.ld_unit_zero (S := S1024x512) origin,
    View.ld_unit_zero (S := S512x2048) origin, View.ld_unit_zero (S := S1024x2048) origin]

/-- The last contraction block: the output block is the new running block plus the bias row along the rows. -/
theorem output_last (c : Dev nD) (i : grid0.Coords) (a3 : Memref sig .tc .vmem S1024x512 .f32) (h3 : a3.IsWhole)
    (a4 : Memref sig .tc .vmem S512x2048 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : ¬cond0_0 i) (hc1 : cond0_1 i) (x0 : Vec F S1024x512 .f32) (x1 : Vec F S512x2048 .bf16) (x2 : Vec F S1x2048 .f32) (prev : Vec F S1024x2048 .f32) :
    out0_C_3 c i a3 h3 a4 h4 a5 h5 a6 h6 a7 h7 hc0 hc1 x0 x1 x2 prev = k0_pay3 (k0_pay2 x0 prev x1) x2 := by
  unfold out0_C_3
  rw [View.read_writes_eq_canon _ _ _ (cover0_C_3 c i a3 h3 a4 h4 a5 h5 a6 h6 a7 h7 hc0 hc1 x0 x1 x2 prev)]
  unfold kernelRun0_C
  dsimp only
  sl_unfold_words
  rw [View.canon_unit_zero origin]
  simp only [View.readAt_eq_ld, h3.read_unread, h4.read_unread, h5.read_unread, h7.read_unread,
    View.ld_unit_zero (S := S1024x512) origin, View.ld_unit_zero (S := S512x2048) origin,
    View.ld_unit_zero (S := S1024x2048) origin, View.ld_unit_zero (S := S1x2048) origin,
    View.readCov_unit_zero (S := S1024x2048) _ origin]

end Cert.KernelIdeal.Steps

end
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.Spec.lean ====
/-
  A linear layer with masked weights, over the extended reals.

  The layer's value at batch `b`, position `s` and output feature `o` is
      ∑_{k < 4096} x[b, s, k] · Wm[k, o]  +  bias[o],
  where `Wm = W · mask` is the weight matrix masked entry by entry. A tiled evaluation flattens the 8 · 1024 rows
  to 8192, cuts them into eight blocks of 1024, the 4096 output features into two blocks of 2048 and the 4096
  contraction places into eight blocks of 512, and walks the 8 · 2 · 8 = 128 triples (row block, feature block,
  contraction block) with the contraction block moving fastest. Step `n` is the triple
  (n / 16, n / 8 mod 2, n mod 8); it adds its partial product to a running block that restarts from zero at every
  eighth step. Addition of extended reals is commutative and associative, at the infinities too, so the eight partial
  products of one run add up to the whole contraction: no finiteness of the inputs is used anywhere.

  This module names the step-`n` addend, read at natural-number coordinates, proves that a run of eight steps adds up
  to the sum over all 4096 contraction places, and states the two closed forms: the flattened [8192, 4096] result and
  the layer's [8, 1024, 4096] result.
-/
import proofs.«410328_j31645319036952_3_alg».proof.Proof.LibSums
import Idealize.ShloMosaic.PureOps.Ideal
import Idealize.ShloMosaic.Lib.ValueIdx

open scoped BigOperators

noncomputable section

namespace Cert.MaskedLinear

open Idealize.ShloMosaic Idealize.ShloMosaic.ValueIdx

/-! ## Arrays read at natural-number coordinates -/

/-- The flattened activations, [8192, 4096], read at natural-number coordinates, each taken modulo its extent: a total
    reading, used only below the extents, where it is the plain entry (`rowsAt_eq`). -/
def rowsAt (X : (⟨2, ![8192, 4096]⟩ : Shape).Idx → EReal) (r k : ℕ) : EReal :=
  X (ix2 (⟨r % 8192, Nat.mod_lt _ (by decide)⟩ : Fin 8192) (⟨k % 4096, Nat.mod_lt _ (by decide)⟩ : Fin 4096))

/-- The masked weights, [4096, 4096], read the same way. -/
def wgtAt (Wm : (⟨2, ![4096, 4096]⟩ : Shape).Idx → EReal) (k c : ℕ) : EReal :=
  Wm (ix2 (⟨k % 4096, Nat.mod_lt _ (by decide)⟩ : Fin 4096) (⟨c % 4096, Nat.mod_lt _ (by decide)⟩ : Fin 4096))

theorem rowsAt_eq (X : (⟨2, ![8192, 4096]⟩ : Shape).Idx → EReal) (r k : ℕ) (hr : r < 8192) (hk : k < 4096) :
    rowsAt X r k = X (ix2 (⟨r, hr⟩ : Fin 8192) (⟨k, hk⟩ : Fin 4096)) := by
  have e1 : (⟨r % 8192, Nat.mod_lt _ (by decide)⟩ : Fin 8192) = ⟨r, hr⟩ := Fin.ext (Nat.mod_eq_of_lt hr)
  have e2 : (⟨k % 4096, Nat.mod_lt _ (by decide)⟩ : Fin 4096) = ⟨k, hk⟩ := Fin.ext (Nat.mod_eq_of_lt hk)
  unfold rowsAt
  rw [e1, e2]

theorem wgtAt_eq (Wm : (⟨2, ![4096, 4096]⟩ : Shape).Idx → EReal) (k c : ℕ) (hk : k < 4096) (hc : c < 4096) :
    wgtAt Wm k c = Wm (ix2 (⟨k, hk⟩ : Fin 4096) (⟨c, hc⟩ : Fin 4096)) := by
  have e1 : (⟨k % 4096, Nat.mod_lt _ (by decide)⟩ : Fin 4096) = ⟨k, hk⟩ := Fin.ext (Nat.mod_eq_of_lt hk)
  have e2 : (⟨c % 4096, Nat.mod_lt _ (by decide)⟩ : Fin 4096) = ⟨c, hc⟩ := Fin.ext (Nat.mod_eq_of_lt hc)
  unfold wgtAt
  rw [e1, e2]

/-! ## One step's addend, and a run of eight steps -/

/-- What step `n` adds at place (p, q) of its running block: row `1024 · (n / 16) + p` of the activations against
    column `2048 · (n / 8 mod 2) + q` of the masked weights, over the 512 contraction places of block `n mod 8`. -/
def addend (X : (⟨2, ![8192, 4096]⟩ : Shape).Idx → EReal) (Wm : (⟨2, ![4096, 4096]⟩ : Shape).Idx → EReal)
    (n p q : ℕ) : EReal :=
  ∑ kk : Fin 512, rowsAt X (n / 16 * 1024 + p) (n % 8 * 512 + kk.val) * wgtAt Wm (n % 8 * 512 + kk.val) (n / 8 % 2 * 2048 + q)

/-- Eight blocks of 512 places are the 4096 places. -/
theorem sum_blocks_8_512 {M : Type*} [AddCommMonoid M] (f : ℕ → M) :
    ∑ t : Fin 8, ∑ r : Fin 512, f (t.val * 512 + r.val) = ∑ i : Fin 4096, f i.val := LibSums.sum_blocks 8 512 f

/-- A run of eight steps from a step `b` divisible by eight keeps its row block and its feature block and goes through
    the eight contraction blocks, so its addends sum to the whole contraction. -/
theorem sum_run (X : (⟨2, ![8192, 4096]⟩ : Shape).Idx → EReal) (Wm : (⟨2, ![4096, 4096]⟩ : Shape).Idx → EReal)
    (b : ℕ) (hb : b % 8 = 0) (p q : ℕ) :
    ∑ s ∈ Finset.range 8, addend X Wm (b + s) p q
      = ∑ k : Fin 4096, rowsAt X (b / 16 * 1024 + p) k.val * wgtAt Wm k.val (b / 8 % 2 * 2048 + q) := by
  rw [Finset.sum_range]
  refine Eq.trans ?_ (sum_blocks_8_512 fun i => rowsAt X (b / 16 * 1024 + p) i * wgtAt Wm i (b / 8 % 2 * 2048 + q))
  refine Finset.sum_congr rfl fun s _ => ?_
  have hs := s.isLt
  have h1 : (b + s.val) / 16 = b / 16 := by omega
  have h2 : (b + s.val) / 8 % 2 = b / 8 % 2 := by omega
  have h3 : (b + s.val) % 8 = s.val := by omega
  unfold addend
  rw [h1, h2, h3]

/-- A sequence that restarts at `0 + a n` at every step divisible by eight and adds `a n` to its predecessor at every
    other step is, at each step, the sum of the addends since the last restart. -/
theorem run_sum {M : Type*} [AddCommMonoid M] {N : ℕ} (f : (n : ℕ) → n < N → M) (a : ℕ → M)
    (h0 : ∀ (n : ℕ) (h : n < N), n % 8 = 0 → f n h = 0 + a n)
    (hs : ∀ (n : ℕ) (h : n + 1 < N), ¬(n + 1) % 8 = 0 → f (n + 1) h = f n (Nat.lt_of_succ_lt h) + a (n + 1)) :
    ∀ (n : ℕ) (h : n < N), f n h = ∑ s ∈ Finset.range (n % 8 + 1), a (n / 8 * 8 + s)
  | 0, h => by
    rw [h0 0 h rfl, zero_add]
    show a 0 = ∑ s ∈ Finset.range 1, a (0 / 8 * 8 + s)
    rw [Finset.sum_range_one]
  | n + 1, h => by
    by_cases hz : (n + 1) % 8 = 0
    · have e1 : (n + 1) % 8 + 1 = 1 := by omega
      have e2 : (n + 1) / 8 * 8 + 0 = n + 1 := by omega
      rw [h0 (n + 1) h hz, zero_add, e1, Finset.sum_range_one, e2]
    · have e1 : (n + 1) % 8 + 1 = (n % 8 + 1) + 1 := by omega
      have e2 : (n + 1) / 8 = n / 8 := by omega
      have e3 : n / 8 * 8 + (n % 8 + 1) = n + 1 := by omega
      rw [hs n h hz, e1, Finset.sum_range_succ, e2, e3, run_sum f a h0 hs n (Nat.lt_of_succ_lt h)]

/-! ## The closed forms -/

/-- The flattened result, [8192, 4096]: row `r` against column `c` over the whole contraction, plus the bias (held as a
    [1, 4096] row) at column `c`. -/
def flatOut (X : (⟨2, ![8192, 4096]⟩ : Shape).Idx → EReal) (Wm : (⟨2, ![4096, 4096]⟩ : Shape).Idx → EReal)
    (B : (⟨2, ![1, 4096]⟩ : Shape).Idx → EReal) : (⟨2, ![8192, 4096]⟩ : Shape).Idx → EReal :=
  fun i => (∑ k : Fin 4096, X (ix2 (i 0) k) * Wm (ix2 k (i 1))) + B (ix2 (0 : Fin 1) (i 1))

/-- The layer's result, [8, 1024, 4096]. -/
def layerOut (x : (⟨3, ![8, 1024, 4096]⟩ : Shape).Idx → EReal) (Wm : (⟨2, ![4096, 4096]⟩ : Shape).Idx → EReal)
    (bias : (⟨1, ![4096]⟩ : Shape).Idx → EReal) : (⟨3, ![8, 1024, 4096]⟩ : Shape).Idx → EReal :=
  fun i => (∑ k : Fin 4096, x (ix3 (i 0) (i 1) k) * Wm (ix2 k (i 2))) + bias (ix1 (i 2))

/-- The flattened result read at row `1024 · b + s` is the layer's result at (b, s), when the flattened activations
    are the activations in row-major order and the bias row is the bias. -/
theorem flatOut_eq_layerOut (x : (⟨3, ![8, 1024, 4096]⟩ : Shape).Idx → EReal)
    (X : (⟨2, ![8192, 4096]⟩ : Shape).Idx → EReal) (Wm : (⟨2, ![4096, 4096]⟩ : Shape).Idx → EReal)
    (bias : (⟨1, ![4096]⟩ : Shape).Idx → EReal) (B : (⟨2, ![1, 4096]⟩ : Shape).Idx → EReal)
    (hX : ∀ (b : Fin 8) (s : Fin 1024) (k : Fin 4096) (h : b.val * 1024 + s.val < 8192),
      X (ix2 (⟨b.val * 1024 + s.val, h⟩ : Fin 8192) k) = x (ix3 b s k))
    (hB : ∀ o : Fin 4096, B (ix2 (0 : Fin 1) o) = bias (ix1 o))
    (b : Fin 8) (s : Fin 1024) (o : Fin 4096) (h : b.val * 1024 + s.val < 8192) :
    flatOut X Wm B (ix2 (⟨b.val * 1024 + s.val, h⟩ : Fin 8192) o) = layerOut x Wm bias (ix3 b s o) := by
  show (∑ k : Fin 4096, X (ix2 (⟨b.val * 1024 + s.val, h⟩ : Fin 8192) k) * Wm (ix2 k o)) + B (ix2 (0 : Fin 1) o)
    = (∑ k : Fin 4096, x (ix3 b s k) * Wm (ix2 k o)) + bias (ix1 o)
  rw [hB o]
  exact congrArg (· + bias (ix1 o)) (Finset.sum_congr rfl fun k _ => by rw [hX b s k h])

end Cert.MaskedLinear

end
-- ==== Proof.Accumulate.lean ====
/-
  The running block is the sum of the steps' block products since the last restart, and the block a step with the
  last contraction block writes out is the closed form.

  Step `t` of the 8 · 2 · 8 walk has row block `t / 16`, feature block `t / 8 mod 2` and contraction block `t mod 8`:
  its activation block is rows `1024 · (t / 16) + p`, places `512 · (t mod 8) + kk` of the flattened activations; its
  weight block is places `512 · (t mod 8) + kk`, columns `2048 · (t / 8 mod 2) + q` of the masked weights; its bias block
  is columns `2048 · (t / 8 mod 2) + q` of the bias row. Over the extended reals a block product into the zero block is
  the plain sum over the block's 512 places, a change of float format is the identity, and the zero word is `0`. So a
  first step leaves `0 +` its addend, a later one adds its addend to what the step before left, and by `run_sum` the
  running block after step `t` is the sum of the addends of steps `8 · (t / 8) … t`. At `t mod 8 = 7` that is the whole
  contraction (`sum_run`), and the output block is that plus the bias.
-/
import proofs.«410328_j31645319036952_3_alg».proof.Proof.Steps
import proofs.«410328_j31645319036952_3_alg».proof.Proof.Spec
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Steps Cert.MaskedLinear
open Idealize.ShloMosaic.ValueIdx

variable (m : (ℓ : Loc nD τ sig) → Buf (Elt Ideal) ℓ)

/-! ## The arrays the region reads, and a step's blocks of them -/

/-- The flattened activations as the region finds them. -/
abbrev acts (c : Dev nD) : FVec Ideal S8192x4096 .f32 := V m c main_call0_v3
/-- The masked weights as the region finds them. -/
abbrev wgts (c : Dev nD) : FVec Ideal S4096x4096 .bf16 := V m c main_call0_v2
/-- The bias row as the region finds it. -/
abbrev biasRow (c : Dev nD) : FVec Ideal S1x4096 .f32 := V m c main_call0_v4

/-- Step `t`'s activation block, -/
abbrev actBlk (c : Dev nD) (t : Fin cfg0.N) : FVec Ideal S1024x512 .f32 := iblk m c 0 t
/-- its weight block, -/
abbrev wgtBlk (c : Dev nD) (t : Fin cfg0.N) : FVec Ideal S512x2048 .bf16 := iblk m c 1 t
/-- and its bias block. -/
abbrev biasBlk (c : Dev nD) (t : Fin cfg0.N) : FVec Ideal S1x2048 .f32 := iblk m c 2 t

/-- Where step `t`'s blocks sit: (row block, contraction block) for the activations, (contraction block, feature
    block) for the weights, (0, feature block) for the bias row, (row block, feature block) for the output. -/
theorem block_index : ∀ t : Fin cfg0.N,
    win0_0.index t (0 : Fin 2) = t.val / 16 ∧ win0_0.index t (1 : Fin 2) = t.val % 8
    ∧ win0_1.index t (0 : Fin 2) = t.val % 8 ∧ win0_1.index t (1 : Fin 2) = t.val / 8 % 2
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N, _)

theorem actBlk_apply (c : Dev nD) (t : Fin cfg0.N) (p : Fin 1024) (kk : Fin 512) :
    actBlk m c t (ix2 p kk) = rowsAt (acts m c) (t.val / 16 * 1024 + p.val) (t.val % 8 * 512 + kk.val) := by
  have hN : t.val < 128 := lt_of_lt_of_eq t.isLt (show cfg0.N = 128 from N_0)
  obtain ⟨e0, e1, -⟩ := block_index t
  rw [rowsAt_eq _ _ _ (by omega) (by omega)]
  show iblk m c 0 t (ix2 p kk) = _
  unfold iblk
  rw [View.read_apply]
  show V m c main_call0_v3 _ = V m c main_call0_v3 _
  congr 1
  funext a
  apply Fin.ext
  match a with
  | ⟨0, _⟩ => show win0_0.index t (0 : Fin 2) * 1024 + 1 * p.val = t.val / 16 * 1024 + p.val; omega
  | ⟨1, _⟩ => show win0_0.index t (1 : Fin 2) * 512 + 1 * kk.val = t.val % 8 * 512 + kk.val; omega

theorem wgtBlk_apply (c : Dev nD) (t : Fin cfg0.N) (kk : Fin 512) (q : Fin 2048) :
    wgtBlk m c t (ix2 kk q) = wgtAt (wgts m c) (t.val % 8 * 512 + kk.val) (t.val / 8 % 2 * 2048 + q.val) := by
  have hN : t.val < 128 := lt_of_lt_of_eq t.isLt (show cfg0.N = 128 from N_0)
  obtain ⟨-, -, e0, e1, -⟩ := block_index t
  rw [wgtAt_eq _ _ _ (by omega) (by omega)]
  show iblk m c 1 t (ix2 kk q) = _
  unfold iblk
  rw [View.read_apply]
  show V m c main_call0_v2 _ = V m c main_call0_v2 _
  congr 1
  funext a
  apply Fin.ext
  match a with
  | ⟨0, _⟩ => show win0_1.index t (0 : Fin 2) * 512 + 1 * kk.val = t.val % 8 * 512 + kk.val; omega
  | ⟨1, _⟩ => show win0_1.index t (1 : Fin 2) * 2048 + 1 * q.val = t.val / 8 % 2 * 2048 + q.val; omega

theorem biasBlk_apply (c : Dev nD) (t : Fin cfg0.N) (q : Fin 2048) (hc : t.val / 8 % 2 * 2048 + q.val < 4096) :
    biasBlk m c t (ix2 (0 : Fin 1) q) = biasRow m c (ix2 (0 : Fin 1) (⟨t.val / 8 % 2 * 2048 + q.val, hc⟩ : Fin 4096)) := by
  obtain ⟨-, -, -, -, e0, e1, -⟩ := block_index t
  show iblk m c 2 t (ix2 (0 : Fin 1) q) = _
  unfold iblk
  rw [View.read_apply]
  show V m c main_call0_v4 _ = V m c main_call0_v4 _
  congr 1
  funext a
  apply Fin.ext
  match a with
  | ⟨0, _⟩ => show win0_2.index t (0 : Fin 2) * 1 + 1 * 0 = 0; omega
  | ⟨1, _⟩ => show win0_2.index t (1 : Fin 2) * 2048 + 1 * q.val = t.val / 8 % 2 * 2048 + q.val; omega

/-- The step's block product at place (p, q) is its addend. -/
theorem product_at (c : Dev nD) (t : Fin cfg0.N) (p : Fin 1024) (q : Fin 2048) :
    ∑ kk : Fin 512, actBlk m c t (ix2 p kk) * wgtBlk m c t (ix2 kk q) = addend (acts m c) (wgts m c) t.val p.val q.val := by
  unfold addend
  exact Finset.sum_congr rfl fun kk _ => by rw [actBlk_apply, wgtBlk_apply]

/-! ## The stores' values at a place -/

theorem lhs_row (i : S1024x2048.Idx) (k : dot_S1024x512_S512x2048_S1024x2048_1_0_0_1_n_n.contr.Idx) : (dot_S1024x512_S512x2048_S1024x2048_1_0_0_1_n_n.lhsIdx i k 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem lhs_place (i : S1024x2048.Idx) (k : dot_S1024x512_S512x2048_S1024x2048_1_0_0_1_n_n.contr.Idx) : (dot_S1024x512_S512x2048_S1024x2048_1_0_0_1_n_n.lhsIdx i k 1).val = (k ⟨0, by decide⟩).val :=
  dot_S1024x512_S512x2048_S1024x2048_1_0_0_1_n_n.lhsIdx_val_of_single rfl i k
theorem rhs_place (i : S1024x2048.Idx) (k : dot_S1024x512_S512x2048_S1024x2048_1_0_0_1_n_n.contr.Idx) : (dot_S1024x512_S512x2048_S1024x2048_1_0_0_1_n_n.rhsIdx i k 0).val = (k ⟨0, by decide⟩).val :=
  dot_S1024x512_S512x2048_S1024x2048_1_0_0_1_n_n.rhsIdx_val_of_single rfl i k
theorem rhs_col (i : S1024x2048.Idx) (k : dot_S1024x512_S512x2048_S1024x2048_1_0_0_1_n_n.contr.Idx) : (dot_S1024x512_S512x2048_S1024x2048_1_0_0_1_n_n.rhsIdx i k 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- A [1024, 512] by [512, 2048] product into the zero block, at place (p, q): the sum over the 512 places. -/
theorem product_apply (a : FVec Ideal S1024x512 .bf16) (b : FVec Ideal S512x2048 .bf16) (i : S1024x2048.Idx) :
    matmul dot_S1024x512_S512x2048_S1024x2048_1_0_0_1_n_n none a b (constant (F := Ideal) S1024x2048 .f32 0x00000000#32) i
      = ∑ kk : Fin 512, a (ix2 (i 0) kk) * b (ix2 kk (i 1)) := by
  simp only [matmul]
  rw [Ideal.matmul_constant_zero_apply, ← Equiv.sum_comp (ValueIdx.contrEquiv1 dot_S1024x512_S512x2048_S1024x2048_1_0_0_1_n_n 512 rfl rfl).symm]
  refine Finset.sum_congr rfl fun k _ => ?_
  have hk := ValueIdx.contrEquiv1_symm_val dot_S1024x512_S512x2048_S1024x2048_1_0_0_1_n_n 512 rfl rfl k
  have el : dot_S1024x512_S512x2048_S1024x2048_1_0_0_1_n_n.lhsIdx i ((ValueIdx.contrEquiv1 dot_S1024x512_S512x2048_S1024x2048_1_0_0_1_n_n 512 rfl rfl).symm k) = ix2 (i 0) k := funext fun a => Fin.ext (by
    match a with
    | ⟨0, _⟩ => exact lhs_row _ _
    | ⟨1, _⟩ => exact (lhs_place _ _).trans hk)
  have er : dot_S1024x512_S512x2048_S1024x2048_1_0_0_1_n_n.rhsIdx i ((ValueIdx.contrEquiv1 dot_S1024x512_S512x2048_S1024x2048_1_0_0_1_n_n 512 rfl rfl).symm k) = ix2 k (i 1) := funext fun a => Fin.ext (by
    match a with
    | ⟨0, _⟩ => exact (rhs_place _ _).trans hk
    | ⟨1, _⟩ => exact rhs_col _ _)
  rw [el, er]
  rfl

/-- The restart's value: zero everywhere. -/
theorem zero_apply (i : S1024x2048.Idx) : k0_pay1 (F := Ideal) i = 0 := by
  unfold k0_pay1
  simp only [shapeCast_self]
  exact Ideal.ofBits_zero_f32

/-- The accumulating store's value at (p, q): the block read back plus the product of the two input blocks. -/
theorem accumulated_apply (x : FVec Ideal S1024x512 .f32) (prev : FVec Ideal S1024x2048 .f32) (w : FVec Ideal S512x2048 .bf16)
    (p : Fin 1024) (q : Fin 2048) :
    k0_pay2 (F := Ideal) x prev w (ix2 p q) = prev (ix2 p q) + ∑ kk : Fin 512, x (ix2 p kk) * w (ix2 kk q) := by
  unfold k0_pay2
  simp only [shapeCast_self]
  exact congrArg (prev (ix2 p q) + ·) (product_apply _ _ (ix2 p q))

/-- The output store's value at (p, q): the running block there plus the bias row at `q`. -/
theorem biased_apply (r : FVec Ideal S1024x2048 .f32) (b : FVec Ideal S1x2048 .f32) (p : Fin 1024) (q : Fin 2048) :
    k0_pay3 (F := Ideal) r b (ix2 p q) = r (ix2 p q) + b (ix2 (0 : Fin 1) q) := by
  unfold k0_pay3
  simp only [shapeCast_self]
  exact congrArg (r (ix2 p q) + ·) (broadcastTo_apply b broadcasts_S1x2048_S1024x2048 (ix2 p q) (ix2 (0 : Fin 1) q) (fun a => by
    match a with
    | ⟨0, _⟩ => show (0 : ℕ) = if (1 : ℕ) = 1 then 0 else p.val; rw [if_pos rfl]
    | ⟨1, _⟩ => show q.val = if (2048 : ℕ) = 1 then 0 else q.val; rw [if_neg (by decide)]))

/-! ## The running block, step by step -/

/-- A step with the first contraction block leaves `0 +` its addend. -/
theorem running_first_at (c : Dev nD) (t : Fin cfg0.N) (h0 : t.val % 8 = 0) (p : Fin 1024) (q : Fin 2048) :
    (outsAt0 m c t.val t.isLt).2 (ix2 p q) = 0 + addend (acts m c) (wgts m c) t.val p.val q.val := by
  have h1 : ¬t.val % 8 = 7 := by omega
  rw [outsAt0_A m c t h0 h1]
  dsimp only
  refine (congrFun (running_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
  refine (accumulated_apply (actBlk m c t) (k0_pay1 (F := Ideal)) (wgtBlk m c t) p q).trans ?_
  rw [zero_apply, product_at]

/-- Any other step adds its addend to what the step before left. -/
theorem running_later_at (c : Dev nD) (t : Fin cfg0.N) (h0 : ¬t.val % 8 = 0) (p : Fin 1024) (q : Fin 2048) :
    (outsAt0 m c t.val t.isLt).2 (ix2 p q)
      = (outsAt0 m c (t.val - 1) (Nat.lt_of_le_of_lt (Nat.sub_le _ _) t.isLt)).2 (ix2 p q) + addend (acts m c) (wgts m c) t.val p.val q.val := by
  by_cases h1 : t.val % 8 = 7
  · rw [outsAt0_C m c t h0 h1]
    dsimp only
    refine (congrFun (running_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
    refine (accumulated_apply (actBlk m c t) (outsAt0 m c (t.val - 1) (Nat.lt_of_le_of_lt (Nat.sub_le _ _) t.isLt)).2 (wgtBlk m c t) p q).trans ?_
    rw [product_at]
  · rw [outsAt0_B m c t h0 h1]
    dsimp only
    refine (congrFun (running_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 p q)).trans ?_
    refine (accumulated_apply (actBlk m c t) (outsAt0 m c (t.val - 1) (Nat.lt_of_le_of_lt (Nat.sub_le _ _) t.isLt)).2 (wgtBlk m c t) p q).trans ?_
    rw [product_at]

/-- So the running block after step `n` is the sum of the addends since the last restart. -/
theorem running_eq (c : Dev nD) (n : ℕ) (h : n < cfg0.N) (p : Fin 1024) (q : Fin 2048) :
    (outsAt0 m c n h).2 (ix2 p q) = ∑ s ∈ Finset.range (n % 8 + 1), addend (acts m c) (wgts m c) (n / 8 * 8 + s) p.val q.val :=
  run_sum (fun n h => (outsAt0 m c n h).2 (ix2 p q)) (fun n => addend (acts m c) (wgts m c) n p.val q.val)
    (fun n h hz => running_first_at m c ⟨n, h⟩ hz p q)
    (fun n h hz => running_later_at m c ⟨n + 1, h⟩ hz p q) n h

/-! ## The block written out -/

/-- At a step with the last contraction block the output block is the running block plus the bias block along the
    rows. -/
theorem output_at (c : Dev nD) (t : Fin cfg0.N) (h7 : t.val % 8 = 7) (p : Fin 1024) (q : Fin 2048) :
    (outsAt0 m c t.val t.isLt).1 (ix2 p q) = (outsAt0 m c t.val t.isLt).2 (ix2 p q) + biasBlk m c t (ix2 (0 : Fin 1) q) := by
  have h0 : ¬t.val % 8 = 0 := by omega
  rw [outsAt0_C m c t h0 h7]
  dsimp only
  have eo := output_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2
  have es := running_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2
  rw [eo, es]
  exact biased_apply _ (biasBlk m c t) p q

/-- The block a step with the last contraction block writes out is the closed form at the block's place in the
    flattened result: the eight addends of its run are the whole contraction. -/
theorem output_eq (c : Dev nD) (t : Fin cfg0.N) (h7 : t.val % 8 = 7) (p : Fin 1024) (q : Fin 2048)
    (hr : t.val / 16 * 1024 + p.val < 8192) (hc : t.val / 8 % 2 * 2048 + q.val < 4096) :
    (outsAt0 m c t.val t.isLt).1 (ix2 p q)
      = flatOut (acts m c) (wgts m c) (biasRow m c) (ix2 (⟨t.val / 16 * 1024 + p.val, hr⟩ : Fin 8192) (⟨t.val / 8 % 2 * 2048 + q.val, hc⟩ : Fin 4096)) := by
  have hb : t.val / 8 * 8 % 8 = 0 := by omega
  have e1 : t.val / 8 * 8 / 16 = t.val / 16 := by omega
  have e2 : t.val / 8 * 8 / 8 % 2 = t.val / 8 % 2 := by omega
  rw [output_at m c t h7 p q, running_eq m c t.val t.isLt p q, h7, sum_run _ _ _ hb, e1, e2, biasBlk_apply m c t q hc]
  show _ = (∑ k : Fin 4096, acts m c (ix2 (⟨t.val / 16 * 1024 + p.val, hr⟩ : Fin 8192) k) * wgts m c (ix2 k (⟨t.val / 8 % 2 * 2048 + q.val, hc⟩ : Fin 4096)))
    + biasRow m c (ix2 (0 : Fin 1) (⟨t.val / 8 % 2 * 2048 + q.val, hc⟩ : Fin 4096))
  exact congrArg (· + _) (Finset.sum_congr rfl fun k _ => by
    rw [rowsAt_eq _ _ _ hr k.isLt, wgtAt_eq _ _ _ k.isLt hc])

end Cert.KernelIdeal.Acc

end
-- ==== Proof.Region.lean ====
/-
  From the blocks written out to the whole flattened result.

  The output's [1024, 2048] blocks are written out only at the steps whose contraction block is the last, one per (row
  block, feature block) pair, and those sixteen blocks tile the [8192, 4096] array: entry (r, c) lies in the block of
  row block `r / 1024` and feature block `c / 2048`, written at step `16 · (r / 1024) + 8 · (c / 2048) + 7`. Each such
  block is the closed form read at the block's place, so after the last step the array holds the closed form.
-/
import proofs.«410328_j31645319036952_3_alg».proof.Proof.Accumulate
import Idealize.ShloMosaic.Lib.Pipeline.Value

noncomputable section

open Idealize.ShloMosaic Idealize.ShloMosaic.TcCoe Idealize.SL.Sem
open Idealize.ShloMosaic.Pipeline (Dat)

namespace Cert.KernelIdeal.Region

open Cert.KernelIdeal Cert.KernelIdeal.Gen Cert.KernelIdeal.Acc Cert.MaskedLinear
open Idealize.ShloMosaic.ValueIdx

variable (m : (ℓ : Loc nD τ sig) → Buf (Elt Ideal) ℓ)

/-- A row inside step `t`'s row block is a row of the flattened array, -/
theorem row_lt (t : Fin cfg0.N) (p : Fin 1024) : t.val / 16 * 1024 + p.val < 8192 := by
  have hN : t.val < 128 := lt_of_lt_of_eq t.isLt (show cfg0.N = 128 from N_0)
  omega
/-- and a column inside its feature block a column of it. -/
theorem col_lt (t : Fin cfg0.N) (q : Fin 2048) : t.val / 8 % 2 * 2048 + q.val < 4096 := by
  omega

/-- The whole block a step with the last contraction block writes out, as one function of the place in the block. -/
theorem output_block (c : Dev nD) (t : Fin cfg0.N) (h7 : t.val % 8 = 7) :
    (outsAt0 m c t.val t.isLt).1 = fun y : S1024x2048.Idx =>
      flatOut (acts m c) (wgts m c) (biasRow m c)
        (ix2 (⟨t.val / 16 * 1024 + (y 0).val, row_lt t (y 0)⟩ : Fin 8192) (⟨t.val / 8 % 2 * 2048 + (y 1).val, col_lt t (y 1)⟩ : Fin 4096)) := by
  funext y
  obtain ⟨p, q, rfl⟩ : ∃ (p : Fin 1024) (q : Fin 2048), y = ix2 p q := ⟨y 0, y 1, eq_ix2 y⟩
  exact output_eq m c t h7 p q (row_lt t p) (col_lt t q)

/-- What a writing step writes back is its block of the closed form. -/
theorem flushed_eq (c : Dev nD) (t : Fin cfg0.N) (hf : (cfg0.win 3).flush t = true) :
    (dats m 0 c).flushed 3 t = ((cfg0.win 3).blk t).view.read (Elt Ideal) (flatOut (acts m c) (wgts m c) (biasRow m c)) := by
  have h7 : t.val % 8 = 7 := (flush0_3 t).mp hf
  obtain ⟨-, -, -, -, -, -, e0, e1⟩ := block_index t
  show (cfg0.win 3).cut (grid0.coords t) ((dats m 0 c).after 3 t) = _
  rw [after0_3, output_block m c t h7]
  funext y
  show flatOut (acts m c) (wgts m c) (biasRow m c)
      (ix2 (⟨t.val / 16 * 1024 + (y 0).val, row_lt t (y 0)⟩ : Fin 8192) (⟨t.val / 8 % 2 * 2048 + (y 1).val, col_lt t (y 1)⟩ : Fin 4096))
    = flatOut (acts m c) (wgts m c) (biasRow m c) (((cfg0.win 3).blk t).view.emb y)
  congr 1
  funext a
  apply Fin.ext
  match a with
  | ⟨0, _⟩ => show t.val / 16 * 1024 + (y 0).val = win0_3.index t (0 : Fin 2) * 1024 + 1 * (y 0).val; omega
  | ⟨1, _⟩ => show t.val / 8 % 2 * 2048 + (y 1).val = win0_3.index t (1 : Fin 2) * 2048 + 1 * (y 1).val; omega

/-- An entry of the array is in step `t`'s block iff each coordinate is in the block's range on its axis. -/
theorem mem_block (t : Fin cfg0.N) (i : S8192x4096.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_call0_v5).slice (win0_3.rect t)).set ↔ _
  rw [View.set_slice_whole, Rect.mem_set_unit]
  exact Iff.rfl

/-- Every entry is in the block of some writing step. -/
theorem covered (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  obtain ⟨tt, htt⟩ : ∃ tt : Fin cfg0.N, tt.val = (i 0).val / 1024 * 16 + (i 1).val / 2048 * 8 + 7 := ⟨⟨_, by omega⟩, rfl⟩
  obtain ⟨-, -, -, -, -, -, e0, e1⟩ := block_index tt
  refine ⟨tt, (flush0_3 tt).mpr (by omega), ?_⟩
  rw [mem_block]
  intro a
  match a with
  | ⟨0, _⟩ => show win0_3.index tt (0 : Fin 2) * 1024 ≤ (i 0).val ∧ (i 0).val < win0_3.index tt (0 : Fin 2) * 1024 + 1024; omega
  | ⟨1, _⟩ => show win0_3.index tt (1 : Fin 2) * 2048 ≤ (i 1).val ∧ (i 1).val < win0_3.index tt (1 : Fin 2) * 2048 + 2048; omega

/-- So the flattened result array ends holding the closed form. -/
theorem final (c : Dev nD) : (dats m 0 c).arrAt 3 cfg0.N = flatOut (acts m c) (wgts m c) (biasRow m c) :=
  (dats m 0 c).arrAt_eq_of_cover 3 (flatOut (acts m c) (wgts m c) (biasRow m c)) (flushed_eq m c) covered

end Cert.KernelIdeal.Region

end
-- ==== Proof.Layer.lean ====
/-
  The kernel's run computes the layer's closed form.

  Before the tiled region the program converts the mask to a float, multiplies the weights by it entry by entry (and
  changes the product's format, the identity over the extended reals), flattens the activations [8, 1024, 4096] to
  [8192, 4096] and the bias [4096] to a row [1, 4096]; after the region it reshapes the [8192, 4096] result back to
  [8, 1024, 4096]. Both reshapes keep the row-major position: entry (b, s, k) is entry (1024 · b + s, k). So the
  flattened closed form read at row `1024 · b + s` is the layer's closed form at (b, s).
-/
import proofs.«410328_j31645319036952_3_alg».proof.Proof.Region
import Idealize.ShloMosaic.Lib.StableHlo.Run

noncomputable section

open Idealize.ShloMosaic Idealize.ShloMosaic.TcCoe Idealize.SL.Sem
open Idealize.ShloMosaic.Pipeline (Dat)

namespace Cert.KernelIdeal.Layer

open Cert.KernelIdeal Cert.KernelIdeal.Gen Cert.KernelIdeal.Acc Cert.MaskedLinear
open Idealize.ShloMosaic.ValueIdx

variable (m : (ℓ : Loc nD τ sig) → Buf (Elt Ideal) ℓ) (ρ : Dev nD → PrngReg)

/-! ## What the region finds -/

/-- The flattened activations are the activations reshaped. -/
theorem acts_eq (c : Dev nD) :
    acts m c = shapeCast S8192x4096 (m ((c : Thread nD τ).loc main_arg0)) shapeCasts_S8x1024x4096_S8192x4096 := by
  show StableHlo.after hostOps0 (fun b => m (c, b)) (Proc.devRef .tc main_call0_v3) = _
  after_results
  rfl

/-- The masked weights are the weights times the mask as a float, in another float format. -/
theorem wgts_eq (c : Dev nD) :
    wgts m c = truncf .bf16 (mulf (m ((c : Thread nD τ).loc main_arg1)) (sitofp (F := Ideal) .f32 (m ((c : Thread nD τ).loc main_arg3)))) bitsLt_bf16_f32 := by
  show StableHlo.after hostOps0 (fun b => m (c, b)) (Proc.devRef .tc main_call0_v2) = _
  after_results
  rfl

/-- The bias row is the bias reshaped. -/
theorem biasRow_eq (c : Dev nD) :
    biasRow m c = shapeCast S1x4096 (m ((c : Thread nD τ).loc main_arg2)) shapeCasts_S4096_S1x4096 := by
  show StableHlo.after hostOps0 (fun b => m (c, b)) (Proc.devRef .tc main_call0_v4) = _
  after_results
  rfl

/-- Row `1024 · b + s` of the flattened activations is row (b, s) of the activations. -/
theorem acts_apply (c : Dev nD) (b : Fin 8) (s : Fin 1024) (k : Fin 4096) (h : b.val * 1024 + s.val < 8192) :
    acts m c (ix2 (⟨b.val * 1024 + s.val, h⟩ : Fin 8192) k) = m ((c : Thread nD τ).loc main_arg0) (ix3 b s k) := by
  rw [acts_eq]
  exact shapeCast_apply _ shapeCasts_S8x1024x4096_S8192x4096 _ (ix3 b s k) (by
    rw [Shape.rowMajor_val_three, Shape.rowMajor_val_two]
    rfl)

/-- Column `o` of the bias row is entry `o` of the bias. -/
theorem biasRow_apply (c : Dev nD) (o : Fin 4096) :
    biasRow m c (ix2 (0 : Fin 1) o) = m ((c : Thread nD τ).loc main_arg2) (ix1 o) := by
  rw [biasRow_eq]
  exact shapeCast_apply _ shapeCasts_S4096_S1x4096 _ (ix1 o) (by
    rw [Shape.rowMajor_val_one, Shape.rowMajor_val_two]
    show o.val = 0 * 4096 + o.val
    omega)

/-! ## The result -/

/-- After the region the result buffer holds the flattened closed form reshaped. -/
theorem tail_eq (c : Dev nD) :
    (Pipeline.afterTail₀ cfgs (dats m) 0 (V0 m) [hostOps1] c main_v0 : FVec Ideal S8x1024x4096 .f32)
      = shapeCast S8x1024x4096 (flatOut (acts m c) (wgts m c) (biasRow m c)) shapeCasts_S8192x4096_S8x1024x4096 := by
  unfold Pipeline.afterTail₀
  show StableHlo.after hostOps1 _ (Proc.devRef .tc main_v0) = _
  after_results
  exact congrArg (fun A : FVec Ideal S8192x4096 .f32 => shapeCast S8x1024x4096 A shapeCasts_S8192x4096_S8x1024x4096)
    ((Pipeline.withArrays_arr spec0 launch0.win.arr_inj c _ _ 3).trans (Region.final m c))

/-- Which is the layer's closed form over the weights masked entry by entry. -/
theorem result_eq (c : Dev nD) :
    (Pipeline.afterTail₀ cfgs (dats m) 0 (V0 m) [hostOps1] c main_v0 : FVec Ideal S8x1024x4096 .f32)
      = layerOut (m ((c : Thread nD τ).loc main_arg0))
          (mulf (F := Ideal) (m ((c : Thread nD τ).loc main_arg1)) (sitofp (F := Ideal) .f32 (m ((c : Thread nD τ).loc main_arg3))))
          (m ((c : Thread nD τ).loc main_arg2)) := by
  rw [tail_eq]
  funext i
  obtain ⟨b, s, o, rfl⟩ : ∃ (b : Fin 8) (s : Fin 1024) (o : Fin 4096), i = ix3 b s o := ⟨i 0, i 1, i 2, eq_ix3 i⟩
  have h : b.val * 1024 + s.val < 8192 := by omega
  refine (shapeCast_apply _ shapeCasts_S8192x4096_S8x1024x4096 (ix3 b s o) (ix2 (⟨b.val * 1024 + s.val, h⟩ : Fin 8192) o) (by
    rw [Shape.rowMajor_val_two, Shape.rowMajor_val_three]
    rfl)).trans ?_
  rw [wgts_eq]
  exact flatOut_eq_layerOut (m ((c : Thread nD τ).loc main_arg0)) (acts m c) _ (m ((c : Thread nD τ).loc main_arg2)) (biasRow m c)
    (fun b s k h => acts_apply m c b s k h) (fun o => biasRow_apply m c o) b s o h

/-- The run, read: the result buffer at the layer's closed form of the arguments, the arguments unchanged. -/
theorem run : θ_run defs (onTc (τ := τ) (main (F := Ideal))) ⟨m, fun _ => 0, ρ⟩ fun r => ∀ c : Dev nD,
      r.2.mem ((c.tc : Thread nD τ).loc main_v0)
          = layerOut (m ((c.tc : Thread nD τ).loc main_arg0))
              (mulf (F := Ideal) (m ((c.tc : Thread nD τ).loc main_arg1)) (sitofp (F := Ideal) .f32 (m ((c.tc : Thread nD τ).loc main_arg3))))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Layer

end
-- ==== Proof.Reference.lean ====
/-
  The reference computes the layer's closed form.

  Its six operations are: the mask converted to a float, the weights times it, the contraction of the activations'
  last axis with the masked weights' first, the bias broadcast along batch and position, and the sum of the two. Read at
  an index (b, s, o) over the extended reals this is `∑_k x[b, s, k] · (W[k, o] · mask[k, o]) + bias[o]`.
-/
import proofs.«410328_j31645319036952_3_alg».proof.Defs
import proofs.«410328_j31645319036952_3_alg».proof.Proof.Gen.ReferenceIdeal.Read
import proofs.«410328_j31645319036952_3_alg».proof.Proof.Spec

noncomputable section

namespace Cert.ReferenceIdeal.RefValue

open Cert.ReferenceIdeal Cert.ReferenceIdeal.Gen Cert.ReferenceIdeal.Read Cert.MaskedLinear
open Idealize.ShloMosaic Idealize.ShloMosaic.ValueIdx

/-- The reference's result, as a function of its four arguments, is the layer's closed form over the weights
    masked entry by entry: the contraction's left index at (b, s, o) and place `k` is (b, s, k), its right index (k, o),
    and the two broadcasts read the bias at `o`. -/
theorem result_eq (x0 : (⟨S8x1024x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .i32⟩ : BufTy).Contents (Elt Ideal)) :
    val_main_v5 (F := Ideal) x0 x1 x2 x3 = layerOut x0 (mulf (F := Ideal) x1 (sitofp (F := Ideal) .f32 x3)) x2 := by
  funext i
  have el : ∀ k : Fin 4096, lidx_main_v2 i k = ix3 (i 0) (i 1) k := fun k => funext fun a => Fin.ext (by
    match a with
    | ⟨0, _⟩ => rfl
    | ⟨1, _⟩ => rfl
    | ⟨2, _⟩ => rfl)
  have er : ∀ k : Fin 4096, ridx_main_v2 i k = ix2 k (i 2) := fun k => funext fun a => Fin.ext (by
    match a with
    | ⟨0, _⟩ => rfl
    | ⟨1, _⟩ => rfl)
  have eb : idx_main_v3 (idx_main_v4 i) = ix1 (i 2) := funext fun a => Fin.ext (by
    match a with
    | ⟨0, _⟩ => rfl)
  rw [val_main_v5_apply, val_main_v2_apply, val_main_v4_apply, val_main_v3_apply, eb]
  simp only [el, er]
  rfl

end Cert.ReferenceIdeal.RefValue

end
-- ==== Proof.lean ====
/-
  A linear layer with masked weights: the tiled kernel against the plain formula.

  Both programs compute, at batch `b`, position `s` and output feature `o`,
      ∑_{k < 4096} x[b, s, k] · (W[k, o] · mask[k, o])  +  bias[o].
  The reference does so in six whole-array operations (Proof/Reference.lean). The kernel masks the weights and flattens
  the activations to [8192, 4096] first, then walks 8 · 2 · 8 (row block, feature block, contraction block) triples,
  adding each triple's [1024, 512] · [512, 2048] block product into a running block that restarts at the first
  contraction block and is written out, with the bias added, at the last (Proof/Steps.lean: what a step leaves;
  Proof/Accumulate.lean: the running block as a sum of the steps' addends; Proof/Region.lean: the sixteen blocks
  written out tile the flattened result; Proof/Layer.lean: the reshapes around the walk). Over the extended reals
  addition is commutative and associative, so eight partial contractions of 512 places are the contraction of 4096
  (Proof/Spec.lean), and changes of float format are the identity: the two results agree at every index, for all
  inputs, finite or not. The ideal pass rewrote nothing, so the kernel's idealization is its own text.
-/
import proofs.«410328_j31645319036952_3_alg».proof.Defs
import proofs.«410328_j31645319036952_3_alg».proof.Proof.Gen.Kernel
import proofs.«410328_j31645319036952_3_alg».proof.Proof.Gen.Kernel.Skeleton
import proofs.«410328_j31645319036952_3_alg».proof.Proof.Gen.Kernel.Launch
import proofs.«410328_j31645319036952_3_alg».proof.Proof.Gen.Kernel.Points
import proofs.«410328_j31645319036952_3_alg».proof.Proof.Gen.Kernel.Frame
import proofs.«410328_j31645319036952_3_alg».proof.Proof.Gen.KernelIdeal
import proofs.«410328_j31645319036952_3_alg».proof.Proof.Gen.KernelIdeal.Skeleton
import proofs.«410328_j31645319036952_3_alg».proof.Proof.Gen.KernelIdeal.Launch
import proofs.«410328_j31645319036952_3_alg».proof.Proof.Gen.KernelIdeal.Points
import proofs.«410328_j31645319036952_3_alg».proof.Proof.Gen.KernelIdeal.Frame
import proofs.«410328_j31645319036952_3_alg».proof.Proof.Gen.ReferenceIdeal
import proofs.«410328_j31645319036952_3_alg».proof.Proof.Gen.ReferenceIdeal.Run
import proofs.«410328_j31645319036952_3_alg».proof.Proof.Gen.ReferenceIdeal.Read
import proofs.«410328_j31645319036952_3_alg».proof.Proof.Gen.Pre_finite_inputs
import proofs.«410328_j31645319036952_3_alg».proof.Proof.Layer
import proofs.«410328_j31645319036952_3_alg».proof.Proof.Reference
import Idealize.ShloMosaic.Adequacy
import Idealize.ShloMosaic.Init

noncomputable section

namespace Cert.Proof

open Idealize.ShloMosaic Idealize.ShloMosaic.TcCoe Idealize.SL.Sem Cert.MaskedLinear

/-- The word-level kernel runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the layer's closed form of them. -/
theorem algebraic : Cert.algebraic_KernelIdeal_ReferenceIdeal := by
  intro m ρ m' ρ' _ hagree
  refine ⟨fun c => layerOut (m ((c.tc : Thread Cert.KernelIdeal.nD Cert.KernelIdeal.τ).loc Cert.KernelIdeal.main_arg0))
      (mulf (F := Ideal) (m ((c.tc : Thread Cert.KernelIdeal.nD Cert.KernelIdeal.τ).loc Cert.KernelIdeal.main_arg1))
        (sitofp (F := Ideal) .f32 (m ((c.tc : Thread Cert.KernelIdeal.nD Cert.KernelIdeal.τ).loc Cert.KernelIdeal.main_arg3))))
      (m ((c.tc : Thread Cert.KernelIdeal.nD Cert.KernelIdeal.τ).loc Cert.KernelIdeal.main_arg2)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
